-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S128x1x256 : Shape := ⟨3, ![128, 1, 256]⟩
abbrev S1x128x256 : Shape := ⟨3, ![1, 128, 256]⟩
abbrev S128x128x256 : Shape := ⟨3, ![128, 128, 256]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .f32⟩
  | .hbm, ⟨3, _⟩ => ⟨S1024x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x256_S128x256_0_0 : ∀ a, (![0, 0] : Fin 2 → Nat) a + S128x256.size a ≤ S128x256.size a
  h_S128x256 : 0 < S128x256.numel
  reduces_S128x256_S128 : S128x256.Reduces [1] S128
  shapeCasts_S128_S128x1 : S128.ShapeCasts S128x1
  shapeCasts_S128x256_S128x1x256 : S128x256.ShapeCasts S128x1x256
  shapeCasts_S128x256_S1x128x256 : S128x256.ShapeCasts S1x128x256
  broadcasts_S128x1x256_S128x128x256 : S128x1x256.Broadcasts S128x128x256
  broadcasts_S1x128x256_S128x128x256 : S1x128x256.Broadcasts S128x128x256
  reduces_S128x128x256_S128x128 : S128x128x256.Reduces [2] S128x128
  transposes_S128x1_p1_0_S1x128 : S128x1.Transposes [1, 0] S1x128
  broadcasts_S128x1_S128x128 : S128x1.Broadcasts S128x128
  broadcasts_S1x128_S128x128 : S1x128.Broadcasts S128x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x1024.size a
  hwx0_3 : ∀ i : grid0.Coords, EltTy.bits .f32 = 32 ∨ (Rect.block (s := S1024x1024) S128x128.size (cc0_transform_3 i) (hinb0_3 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S_ : Shape := ⟨0, ![]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x1x256, .f32⟩
  | .hbm, ⟨19, _⟩ => ⟨S1x1024x256, .f32⟩
  | .hbm, ⟨20, _⟩ => ⟨S1024x1024x256, .f32⟩
  | .hbm, ⟨21, _⟩ => ⟨S1024x1024x256, .f32⟩
  | .hbm, ⟨22, _⟩ => ⟨S1024x1024x256, .f32⟩
  | .hbm, ⟨23, _⟩ => ⟨S_, .f32⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S1024x1, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  reducesTo_S1024x256_S1024_d1 : S1024x256.ReducesTo [1] S1024
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x1024_S1024x1024_1_0 : S1024x1024.Transposes [1, 0] S1024x1024

variable [Facts₀]

class Facts : Prop extends Facts₀ where

variable [Facts]
-- ==== Proof.Spec.lean ====
/-
  The Jaccard similarity of sigmoid rows, as one function of the two argument arrays.

  For arrays `x1 : [n, c]` and `x2 : [m, c]`, write `σ` for the logistic function `1 / (1 + e⁻ˣ)` on the extended
  reals.  Row `i` of `x1` and row `j` of `x2` give
    inter i j = ∑ d, min (σ x1[i,d]) (σ x2[j,d]),      rsum x i = ∑ d, σ x[i,d],
    sim i j   = inter i j / (rsum x1 i + rsum x2 j - inter i j).
  The first result array holds `sim i j` at `(i, j)`; the second is its transpose.  An entry depends on row `i` of
  `x1` and row `j` of `x2` only, so it can be computed from any two blocks of rows that contain them.
-/
import Idealize.ShloMosaic.PureOps.Ideal
import Idealize.ShloMosaic.PureOps.Ideal.Laws
import Idealize.ShloMosaic.Lib.ValueIdx

noncomputable section

namespace Cert.Jaccard

open Idealize.ShloMosaic Idealize.ShloMosaic.ValueIdx

/-- The logistic function of entry `(i, d)`. -/
def sg {n c : ℕ} (x : (⟨2, ![n, c]⟩ : Shape).Idx → EReal) (i : Fin n) (d : Fin c) : EReal :=
  Ideal.logistic (x (ix2 i d))

/-- The sum of row `i` after the logistic function. -/
def rsum {n c : ℕ} (x : (⟨2, ![n, c]⟩ : Shape).Idx → EReal) (i : Fin n) : EReal :=
  ∑ d : Fin c, sg x i d

/-- The sum over `d` of the smaller of the two rows' entries. -/
def inter {n m c : ℕ} (x1 : (⟨2, ![n, c]⟩ : Shape).Idx → EReal) (x2 : (⟨2, ![m, c]⟩ : Shape).Idx → EReal)
    (i : Fin n) (j : Fin m) : EReal :=
  ∑ d : Fin c, min (sg x1 i d) (sg x2 j d)

/-- The similarity of row `i` of `x1` and row `j` of `x2`: the sum of minima over the sum of maxima, the latter
    written as `rsum + rsum - inter`. -/
def sim {n m c : ℕ} (x1 : (⟨2, ![n, c]⟩ : Shape).Idx → EReal) (x2 : (⟨2, ![m, c]⟩ : Shape).Idx → EReal)
    (i : Fin n) (j : Fin m) : EReal :=
  Ideal.div (inter x1 x2 i j) (rsum x1 i + rsum x2 j - inter x1 x2 i j)

/-- The similarity matrix. -/
def simArr {n m c : ℕ} (x1 : (⟨2, ![n, c]⟩ : Shape).Idx → EReal) (x2 : (⟨2, ![m, c]⟩ : Shape).Idx → EReal) :
    (⟨2, ![n, m]⟩ : Shape).Idx → EReal :=
  fun p => sim x1 x2 (p 0) (p 1)

/-- Its transpose. -/
def simTArr {n m c : ℕ} (x1 : (⟨2, ![n, c]⟩ : Shape).Idx → EReal) (x2 : (⟨2, ![m, c]⟩ : Shape).Idx → EReal) :
    (⟨2, ![m, n]⟩ : Shape).Idx → EReal :=
  fun p => sim x1 x2 (p 1) (p 0)

theorem simArr_ix2 {n m c : ℕ} (x1 : (⟨2, ![n, c]⟩ : Shape).Idx → EReal) (x2 : (⟨2, ![m, c]⟩ : Shape).Idx → EReal)
    (i : Fin n) (j : Fin m) : simArr x1 x2 (ix2 i j) = sim x1 x2 i j := rfl

theorem simTArr_ix2 {n m c : ℕ} (x1 : (⟨2, ![n, c]⟩ : Shape).Idx → EReal) (x2 : (⟨2, ![m, c]⟩ : Shape).Idx → EReal)
    (j : Fin m) (i : Fin n) : simTArr x1 x2 (ix2 j i) = sim x1 x2 i j := rfl

/-- An entry of the similarity matrix depends only on the two rows it pairs: two other arrays holding the same
    rows (a block of rows cut out of each array, say) give the same entry. -/
theorem sim_congr {n m n' m' c : ℕ}
    (x1 : (⟨2, ![n, c]⟩ : Shape).Idx → EReal) (x2 : (⟨2, ![m, c]⟩ : Shape).Idx → EReal)
    (y1 : (⟨2, ![n', c]⟩ : Shape).Idx → EReal) (y2 : (⟨2, ![m', c]⟩ : Shape).Idx → EReal)
    (i : Fin n) (j : Fin m) (i' : Fin n') (j' : Fin m')
    (h1 : ∀ d : Fin c, x1 (ix2 i d) = y1 (ix2 i' d)) (h2 : ∀ d : Fin c, x2 (ix2 j d) = y2 (ix2 j' d)) :
    sim x1 x2 i j = sim y1 y2 i' j' := by
  have hs1 : ∀ d : Fin c, sg x1 i d = sg y1 i' d := fun d => congrArg Ideal.logistic (h1 d)
  have hs2 : ∀ d : Fin c, sg x2 j d = sg y2 j' d := fun d => congrArg Ideal.logistic (h2 d)
  have hi : inter x1 x2 i j = inter y1 y2 i' j' :=
    Finset.sum_congr rfl fun d _ => by rw [hs1 d, hs2 d]
  have hr1 : rsum x1 i = rsum y1 i' := Finset.sum_congr rfl fun d _ => hs1 d
  have hr2 : rsum x2 j = rsum y2 j' := Finset.sum_congr rfl fun d _ => hs2 d
  unfold sim
  rw [hi, hr1, hr2]

end Cert.Jaccard

end
-- ==== Proof.RefSide.lean ====
/-
  The reference's two results as functions of its arguments.

  The reference spells the logistic function as `1 / (1 + exp (-x))`, which on the extended reals is the logistic
  function itself; its sums start from the constant zero.  Reading the program one operation at a time, the entry
  `(i, j)` of its first result is the similarity of row `i` of the first argument and row `j` of the second, and its
  second result is the transpose of the first.
-/
import proofs.«141570_j37555194036374_1_alg».proof.Proof.Gen.ReferenceIdeal.Read
import proofs.«141570_j37555194036374_1_alg».proof.Proof.Spec
import Idealize.ShloMosaic.Lib.IdealHost

noncomputable section

namespace Cert.Jaccard.RefSide

open Cert.ReferenceIdeal Cert.ReferenceIdeal.Read Idealize.ShloMosaic Idealize.ShloMosaic.ValueIdx Cert.Jaccard

/-- The quotient `1 / (1 + exp (-x))` of the first argument is the logistic function of it, entry by entry. -/
theorem sigmoid0_apply (x0 : (⟨S1024x256, .f32⟩ : BufTy).Contents (Elt Ideal)) (j : S1024x256.Idx) :
    val_main_v5 (F := Ideal) x0 j = Ideal.logistic (x0 j) := by
  rw [val_main_v5_apply, val_main_v4_apply, val_main_cst_0_apply, val_main_v3_apply, val_main_v2_apply,
    val_main_cst_apply, val_main_v1_apply, val_main_v0_apply]
  show Ideal.div (Ideal.ofBits .f32 0x3F800000#32) (Ideal.ofBits .f32 0x3F800000#32 + Ideal.exp (-(x0 j))) = _
  rw [Ideal.ofBits_one_f32]
  rfl

/-- The same for the second argument. -/
theorem sigmoid1_apply (x1 : (⟨S1024x256, .f32⟩ : BufTy).Contents (Elt Ideal)) (j : S1024x256.Idx) :
    val_main_v11 (F := Ideal) x1 j = Ideal.logistic (x1 j) := by
  rw [val_main_v11_apply, val_main_v10_apply, val_main_cst_2_apply, val_main_v9_apply, val_main_v8_apply,
    val_main_cst_1_apply, val_main_v7_apply, val_main_v6_apply]
  show Ideal.div (Ideal.ofBits .f32 0x3F800000#32) (Ideal.ofBits .f32 0x3F800000#32 + Ideal.exp (-(x1 j))) = _
  rw [Ideal.ofBits_one_f32]
  rfl

/-- The sum over the last axis of the pairwise minima, at `(i, j)`. -/
theorem inter_apply (x0 x1 : (⟨S1024x256, .f32⟩ : BufTy).Contents (Elt Ideal)) (i j : Fin 1024) :
    val_main_v17 (F := Ideal) x0 x1 (ix2 i j) = inter x0 x1 i j := by
  rw [val_main_v17_apply, val_main_cst_3_apply]
  show Ideal.ofBits .f32 0x00000000#32 + _ = _
  rw [Ideal.ofBits_zero_f32, zero_add]
  unfold inter
  refine Finset.sum_congr rfl fun k _ => ?_
  rw [val_main_v16_apply, val_main_v14_apply, val_main_v12_apply, sigmoid0_apply, val_main_v15_apply,
    val_main_v13_apply, sigmoid1_apply]
  have e0 : idx_main_v12 (idx_main_v14 (idx_main_v17 (ix2 i j) k)) = ix2 i k :=
    funext fun a => by match a with | ⟨0, _⟩ => rfl | ⟨1, _⟩ => rfl
  have e1 : idx_main_v13 (idx_main_v15 (idx_main_v17 (ix2 i j) k)) = ix2 j k :=
    funext fun a => by match a with | ⟨0, _⟩ => rfl | ⟨1, _⟩ => rfl
  rw [e0, e1]
  rfl

/-- The row sums of the first argument's logistic values. -/
theorem rsum0_apply (x0 : (⟨S1024x256, .f32⟩ : BufTy).Contents (Elt Ideal)) (i : Fin 1024) :
    val_main_v18 (F := Ideal) x0 (ix1 i) = rsum x0 i := by
  rw [val_main_v18_apply, val_main_cst_4_apply]
  show Ideal.ofBits .f32 0x00000000#32 + _ = _
  rw [Ideal.ofBits_zero_f32, zero_add]
  unfold rsum
  refine Finset.sum_congr rfl fun k _ => ?_
  rw [sigmoid0_apply]
  have e0 : idx_main_v18 (ix1 i) k = ix2 i k :=
    funext fun a => by match a with | ⟨0, _⟩ => rfl | ⟨1, _⟩ => rfl
  rw [e0]
  rfl

/-- The row sums of the second argument's logistic values. -/
theorem rsum1_apply (x1 : (⟨S1024x256, .f32⟩ : BufTy).Contents (Elt Ideal)) (j : Fin 1024) :
    val_main_v20 (F := Ideal) x1 (ix1 j) = rsum x1 j := by
  rw [val_main_v20_apply, val_main_cst_5_apply]
  show Ideal.ofBits .f32 0x00000000#32 + _ = _
  rw [Ideal.ofBits_zero_f32, zero_add]
  unfold rsum
  refine Finset.sum_congr rfl fun k _ => ?_
  rw [sigmoid1_apply]
  have e0 : idx_main_v20 (ix1 j) k = ix2 j k :=
    funext fun a => by match a with | ⟨0, _⟩ => rfl | ⟨1, _⟩ => rfl
  rw [e0]
  rfl

/-- The first result at `(i, j)` is the similarity of row `i` and row `j`. -/
theorem sim_apply (x0 x1 : (⟨S1024x256, .f32⟩ : BufTy).Contents (Elt Ideal)) (i j : Fin 1024) :
    val_main_v26 (F := Ideal) x0 x1 (ix2 i j) = sim x0 x1 i j := by
  rw [val_main_v26_apply, val_main_v25_apply, val_main_v24_apply, val_main_v22_apply, val_main_v19_apply,
    val_main_v23_apply, val_main_v21_apply, inter_apply]
  have e0 : idx_main_v19 (idx_main_v22 (ix2 i j)) = ix1 i :=
    funext fun a => by match a with | ⟨0, _⟩ => rfl
  have e1 : idx_main_v21 (idx_main_v23 (ix2 i j)) = ix1 j :=
    funext fun a => by match a with | ⟨0, _⟩ => rfl
  rw [e0, e1, rsum0_apply, rsum1_apply]
  rfl

/-- The first result is the similarity matrix. -/
theorem result0_eq (x0 x1 : (⟨S1024x256, .f32⟩ : BufTy).Contents (Elt Ideal)) :
    val_main_v26 (F := Ideal) x0 x1 = simArr x0 x1 := by
  funext p
  obtain ⟨i, j, rfl⟩ : ∃ (i : Fin 1024) (j : Fin 1024), p = ix2 i j := ⟨p 0, p 1, eq_ix2 p⟩
  exact sim_apply x0 x1 i j

/-- The second result is its transpose. -/
theorem result1_eq (x0 x1 : (⟨S1024x256, .f32⟩ : BufTy).Contents (Elt Ideal)) :
    val_main_v27 (F := Ideal) x0 x1 = simTArr x0 x1 := by
  funext p
  obtain ⟨j, i, rfl⟩ : ∃ (j : Fin 1024) (i : Fin 1024), p = ix2 j i := ⟨p 0, p 1, eq_ix2 p⟩
  rw [val_main_v27_apply]
  have e0 : idx_main_v27 (ix2 j i) = ix2 i j :=
    funext fun a => by match a with | ⟨0, _⟩ => rfl | ⟨1, _⟩ => rfl
  rw [e0]
  exact sim_apply x0 x1 i j

end Cert.Jaccard.RefSide

end
-- ==== Proof.LibKeepdims3.lean ====
/-
  A rank-2 array given a unit axis and broadcast along it, read at an index: the four layout steps behind an outer
  product `w[:, :, None] * a[:, None, :]`. A `[a, b]` array cast to `[a, b, 1]` or to `[a, 1, c]` keeps its row-major
  order, so its entry at the new index is the entry at the old coordinates; a broadcast along a unit axis reads the
  operand at coordinate zero of that axis.
-/
import Idealize.ShloMosaic.Lib.Pipeline.Value
import Idealize.ShloMosaic.Lib.ValueIdx

namespace Cert.LibKeepdims3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Cert.LibKeepdims3
-- ==== Proof.LibColumnForms.lean ====
/-
  Column and leading-axis layout steps read at an index. A length-`a` vector cast to an `[a, 1]` column keeps its
  entries; a column broadcast to `[a, b]` repeats its entry along each row; a `[1, b, c]` array broadcast to
  `[a, b, c]` repeats its one slab. These are the steps behind `sum(keepdims=True)` added to a transposed column,
  and behind `b[None, :, :]` paired against every row of another array.
-/
import Idealize.ShloMosaic.Lib.Pipeline.Value
import Idealize.ShloMosaic.Lib.ValueIdx

namespace Cert.LibColumnForms

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibColumnForms
-- ==== Proof.KernelBlock.lean ====
/-
  What one grid point of the kernel leaves in its two output blocks.

  The body loads a block `P0` of 128 rows of the first argument and a block `P1` of 128 rows of the second, takes
  the logistic function of both, and forms three reductions over the last axis: the row sums of each block and, for
  every pair `(p, q)` of rows, the sum of the entrywise minima.  The generated value leg has already pushed the block
  index through the body's casts, broadcasts and transposes; what is left is to read each reduction, at the ideal
  values, as a sum over `Fin 256`.  The first output block then holds at `(p, q)` the similarity of row `p` of `P0`
  and row `q` of `P1`, and the second output block holds the same number at `(q, p)`.
-/
import proofs.«141570_j37555194036374_1_alg».proof.Proof.ValuePatched
import proofs.«141570_j37555194036374_1_alg».proof.Proof.Spec
import proofs.«141570_j37555194036374_1_alg».proof.Proof.LibKeepdims3
import proofs.«141570_j37555194036374_1_alg».proof.Proof.LibColumnForms
import Idealize.ShloMosaic.Lib.ValueLayout

noncomputable section

namespace Cert.Jaccard.KernelBlock

open Cert.KernelIdeal Cert.KernelIdeal.Gen Cert.KernelIdeal.ValueP Idealize.ShloMosaic Idealize.ShloMosaic.ValueIdx
open Cert.Jaccard Cert.LibKeepdims3 Cert.LibColumnForms

/-- A row sum of a block's logistic values, at the ideal values: the sum over `Fin 256` of that row. -/
theorem rowsum_apply (P : FVec Ideal S128x256 .f32) (p : Fin 128) :
    (multiReduction (F := Ideal) .add [1] S128 (logistic (F := Ideal) P) 0x00000000#32 reduces_S128x256_S128 (.inl rfl) rfl) (ix1 p) = rsum P p := by
  refine (Ideal.multiReduction_add_single (logistic (F := Ideal) P) 0x00000000#32 reduces_S128x256_S128 (.inl rfl) rfl (ix1 p)).trans ?_
  unfold rsum
  refine Finset.sum_congr rfl fun (k : Fin 256) _ => ?_
  have hk : reduces_S128x256_S128.lift (ix1 p) k = ix2 p k :=
    funext fun a => by match a with | ⟨0, _⟩ => rfl | ⟨1, _⟩ => rfl
  rw [hk]
  rfl

/-- The sum over the last axis of the pairwise minima, at rows `(p, q)`: each broadcast operand read back to its
    block, the reduction a sum over `Fin 256`. -/
theorem inter_apply (P0 P1 : FVec Ideal S128x256 .f32) (p q : Fin 128) :
    (multiReduction (F := Ideal) .add [2] S128x128 (minimumf (broadcastTo S128x128x256 (shapeCast S128x1x256 (logistic (F := Ideal) P0) shapeCasts_S128x256_S128x1x256) broadcasts_S128x1x256_S128x128x256) (broadcastTo S128x128x256 (shapeCast S1x128x256 (logistic (F := Ideal) P1) shapeCasts_S128x256_S1x128x256) broadcasts_S1x128x256_S128x128x256)) 0x00000000#32 reduces_S128x128x256_S128x128 (.inl rfl) rfl) (ix2 p q) = inter P0 P1 p q := by
  refine (Ideal.multiReduction_add_single _ 0x00000000#32 reduces_S128x128x256_S128x128 (.inl rfl) rfl (ix2 p q)).trans ?_
  unfold inter
  refine Finset.sum_congr rfl fun (k : Fin 256) _ => ?_
  have hk : reduces_S128x128x256_S128x128.lift (ix2 p q) k = ix3 p q k :=
    funext fun a => by match a with | ⟨0, _⟩ => rfl | ⟨1, _⟩ => rfl | ⟨2, _⟩ => rfl
  rw [hk]
  show min (broadcastTo S128x128x256 (shapeCast S128x1x256 (logistic (F := Ideal) P0) shapeCasts_S128x256_S128x1x256) broadcasts_S128x1x256_S128x128x256 (ix3 p q k))
      (broadcastTo S128x128x256 (shapeCast S1x128x256 (logistic (F := Ideal) P1) shapeCasts_S128x256_S1x128x256) broadcasts_S1x128x256_S128x128x256 (ix3 p q k))
    = min (sg P0 p k) (sg P1 q k)
  rw [broadcastTo_a1c_abc_apply, shapeCast_ac_a1c_apply, broadcastTo_1bc_abc_apply, shapeCast_ab_1ab_apply]
  rfl

/-- The first output block at `(p, q)`: the similarity of row `p` of `P0` and row `q` of `P1`. -/
theorem block_apply (P0 P1 : Vec Ideal S128x256 .f32) (p q : Fin 128) :
    E2 (F := Ideal) P0 P1 (ix2 p q) = sim P0 P1 p q := by
  have h0 : ix2_0 (ix2 p q) = ix2 p q := funext fun a => by match a with | ⟨0, _⟩ => rfl | ⟨1, _⟩ => rfl
  have h1 : ix2_1 (ix2 p q) = ix1 p := funext fun a => by match a with | ⟨0, _⟩ => rfl
  have h2 : ix2_2 (ix2 p q) = ix1 q := funext fun a => by match a with | ⟨0, _⟩ => rfl
  have h3 : ix2_3 (ix2 p q) = ix2 p q := funext fun a => by match a with | ⟨0, _⟩ => rfl | ⟨1, _⟩ => rfl
  unfold E2
  rw [h0, h1, h2, h3, inter_apply, rowsum_apply, rowsum_apply]
  rfl

/-- The second output block at `(q, p)`: the same similarity, transposed. -/
theorem blockT_apply (P0 P1 : Vec Ideal S128x256 .f32) (q p : Fin 128) :
    E3 (F := Ideal) P0 P1 (ix2 q p) = sim P0 P1 p q := by
  have h0 : ix3_0 (ix2 q p) = ix2 p q := funext fun a => by match a with | ⟨0, _⟩ => rfl | ⟨1, _⟩ => rfl
  have h1 : ix3_1 (ix2 q p) = ix1 p := funext fun a => by match a with | ⟨0, _⟩ => rfl
  have h2 : ix3_2 (ix2 q p) = ix1 q := funext fun a => by match a with | ⟨0, _⟩ => rfl
  have h3 : ix3_3 (ix2 q p) = ix2 p q := funext fun a => by match a with | ⟨0, _⟩ => rfl | ⟨1, _⟩ => rfl
  unfold E3
  rw [h0, h1, h2, h3, inter_apply, rowsum_apply, rowsum_apply]
  rfl

end Cert.Jaccard.KernelBlock

end
-- ==== Proof.KernelValue.lean ====
/-
  The kernel's two result arrays after its run, as functions of the argument arrays.

  The grid is 8 × 8.  At point `(bi, bj)` the body reads rows `128·bi … 128·bi + 127` of the first argument and rows
  `128·bj … 128·bj + 127` of the second, and writes block `(bi, bj)` of the first result and block `(bj, bi)` of the
  second.  Since an entry of the similarity matrix depends only on the two rows it pairs, what a point writes is the
  restriction of the whole similarity matrix (of its transpose, for the second result) to that block; the 64 blocks
  tile each result, so after the run the first result is the similarity matrix and the second its transpose.
-/
import proofs.«141570_j37555194036374_1_alg».proof.Proof.KernelBlock

set_option maxRecDepth 16384

noncomputable section

namespace Cert.Jaccard.KernelValue

open Cert.KernelIdeal Cert.KernelIdeal.Gen Cert.KernelIdeal.ValueP Idealize.ShloMosaic Idealize.ShloMosaic.TcCoe Idealize.SL.Sem
open Idealize.ShloMosaic.ValueIdx Cert.Jaccard Cert.Jaccard.KernelBlock
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## One point's blocks, over variables -/

/-- What a point leaves in its first output block, when its two input blocks are rows `128·bi + p` of `A0` and rows
    `128·bj + q` of `A1`: the similarity matrix of `A0` and `A1` at the array index above the block index. -/
theorem point_block (x0 x1 : Vec Ideal S128x256 .f32) (A0 A1 : Vec Ideal S1024x256 .f32) (bi bj : ℕ)
    (h0 : ∀ (p : Fin 128) (d : Fin 256) (r : Fin 1024), r.val = bi * 128 + p.val → x0 (ix2 p d) = A0 (ix2 r d))
    (h1 : ∀ (q : Fin 128) (d : Fin 256) (r : Fin 1024), r.val = bj * 128 + q.val → x1 (ix2 q d) = A1 (ix2 r d))
    (y : S128x128.Idx) (i : S1024x1024.Idx) (hi0 : (i 0).val = bi * 128 + (y 0).val) (hi1 : (i 1).val = bj * 128 + (y 1).val) :
    out0_2 (F := Ideal) x0 x1 y = simArr A0 A1 i := by
  unfold out0_2
  rw [View.ld_unit_zero (S := S128x256) origin, View.ld_unit_zero (S := S128x256) origin, canon2_eq]
  obtain ⟨p, q, rfl⟩ : ∃ (p : Fin 128) (q : Fin 128), y = ix2 p q := ⟨y 0, y 1, eq_ix2 y⟩
  obtain ⟨r, s, rfl⟩ : ∃ (r : Fin 1024) (s : Fin 1024), i = ix2 r s := ⟨i 0, i 1, eq_ix2 i⟩
  rw [block_apply]
  exact sim_congr x0 x1 A0 A1 p q r s (fun d => h0 p d r hi0) (fun d => h1 q d s hi1)

/-- What it leaves in its second output block: the transposed similarity matrix at the array index above the block
    index, whose first coordinate now runs over the rows of `A1`. -/
theorem point_blockT (x0 x1 : Vec Ideal S128x256 .f32) (A0 A1 : Vec Ideal S1024x256 .f32) (bi bj : ℕ)
    (h0 : ∀ (p : Fin 128) (d : Fin 256) (r : Fin 1024), r.val = bi * 128 + p.val → x0 (ix2 p d) = A0 (ix2 r d))
    (h1 : ∀ (q : Fin 128) (d : Fin 256) (r : Fin 1024), r.val = bj * 128 + q.val → x1 (ix2 q d) = A1 (ix2 r d))
    (y : S128x128.Idx) (i : S1024x1024.Idx) (hi0 : (i 0).val = bj * 128 + (y 0).val) (hi1 : (i 1).val = bi * 128 + (y 1).val) :
    out0_3 (F := Ideal) x0 x1 y = simTArr A0 A1 i := by
  unfold out0_3
  rw [View.ld_unit_zero (S := S128x256) origin, View.ld_unit_zero (S := S128x256) origin, canon3_eq]
  obtain ⟨q, p, rfl⟩ : ∃ (q : Fin 128) (p : Fin 128), y = ix2 q p := ⟨y 0, y 1, eq_ix2 y⟩
  obtain ⟨s, r, rfl⟩ : ∃ (s : Fin 1024) (r : Fin 1024), i = ix2 s r := ⟨i 0, i 1, eq_ix2 i⟩
  rw [blockT_apply]
  exact sim_congr x0 x1 A0 A1 p q r s (fun d => h0 p d r hi1) (fun d => h1 q d s hi0)

/-! ## The index maps over the grid -/

/-- The block indices of the four windows at a point, decided over the 64 points: the first input moves with the first
    output's row block, the second input with its column block, the second output swaps the two; all stay below 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_3.index t (0 : Fin 2) = win0_2.index t (1 : Fin 2) ∧ win0_3.index t (1 : Fin 2) = win0_2.index t (0 : Fin 2)
    ∧ win0_2.index t (0 : Fin 2) ≤ 7 ∧ win0_2.index t (1 : Fin 2) ≤ 7 :=
  (by decide +kernel : ∀ t : Fin grid0.N, _)

/-- Every block of the first result is some point's. -/
theorem index_onto2 : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- Every block of the second result is some point's. -/
theorem index_onto3 : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-! ## The input blocks are rows of the argument arrays -/

theorem block0_rows (c : Dev nD) (t : Fin cfg0.N) (p : Fin 128) (d : Fin 256) (r : Fin 1024)
    (hr : r.val = win0_2.index t (0 : Fin 2) * 128 + p.val) :
    iblk m c 0 t (ix2 p d) = V m c main_arg0 (ix2 r d) := by
  obtain ⟨e0, e1, -⟩ := index_facts t
  show V m c main_arg0 (((cfg0.win 0).blk t).view.emb (ix2 p d)) = V m c main_arg0 (ix2 r d)
  refine congrArg _ (funext fun a => Fin.ext ?_)
  match a with
  | ⟨0, _⟩ => show win0_0.index t (0 : Fin 2) * 128 + 1 * p.val = r.val; omega
  | ⟨1, _⟩ => show win0_0.index t (1 : Fin 2) * 256 + 1 * d.val = d.val; omega

theorem block1_rows (c : Dev nD) (t : Fin cfg0.N) (q : Fin 128) (d : Fin 256) (r : Fin 1024)
    (hr : r.val = win0_2.index t (1 : Fin 2) * 128 + q.val) :
    iblk m c 1 t (ix2 q d) = V m c main_arg1 (ix2 r d) := by
  obtain ⟨-, -, e2, e3, -⟩ := index_facts t
  show V m c main_arg1 (((cfg0.win 1).blk t).view.emb (ix2 q d)) = V m c main_arg1 (ix2 r d)
  refine congrArg _ (funext fun a => Fin.ext ?_)
  match a with
  | ⟨0, _⟩ => show win0_1.index t (0 : Fin 2) * 128 + 1 * q.val = r.val; omega
  | ⟨1, _⟩ => show win0_1.index t (1 : Fin 2) * 256 + 1 * d.val = d.val; omega

/-! ## What each point writes back -/

/-- Point `t` writes block `t` of the similarity matrix of the argument arrays to the first result. -/
theorem flushed2_eq (c : Dev nD) (t : Fin cfg0.N) :
    (dats m 0 c).flushed 2 t
      = ((cfg0.win 2).blk t).view.read (Elt Ideal) (simArr (V m c main_arg0) (V m c main_arg1)) := by
  rw [flushed2]
  funext j
  show out0_2 (F := Ideal) (iblk m c 0 t) (iblk m c 1 t) j
    = simArr (V m c main_arg0) (V m c main_arg1) (((cfg0.win 2).blk t).view.emb j)
  refine point_block (iblk m c 0 t) (iblk m c 1 t) (V m c main_arg0) (V m c main_arg1)
    (win0_2.index t (0 : Fin 2)) (win0_2.index t (1 : Fin 2))
    (fun p d r hr => block0_rows m c t p d r hr) (fun q d r hr => block1_rows m c t q d r hr) j
    (((cfg0.win 2).blk t).view.emb j) ?_ ?_
  · show win0_2.index t (0 : Fin 2) * 128 + 1 * (j 0).val = win0_2.index t (0 : Fin 2) * 128 + (j 0).val; omega
  · show win0_2.index t (1 : Fin 2) * 128 + 1 * (j 1).val = win0_2.index t (1 : Fin 2) * 128 + (j 1).val; omega

/-- Point `t` writes block `t` of the transposed similarity matrix to the second result. -/
theorem flushed3_eq (c : Dev nD) (t : Fin cfg0.N) :
    (dats m 0 c).flushed 3 t
      = ((cfg0.win 3).blk t).view.read (Elt Ideal) (simTArr (V m c main_arg0) (V m c main_arg1)) := by
  rw [flushed3]
  obtain ⟨-, -, -, -, e4, e5, -⟩ := index_facts t
  funext j
  show out0_3 (F := Ideal) (iblk m c 0 t) (iblk m c 1 t) j
    = simTArr (V m c main_arg0) (V m c main_arg1) (((cfg0.win 3).blk t).view.emb j)
  refine point_blockT (iblk m c 0 t) (iblk m c 1 t) (V m c main_arg0) (V m c main_arg1)
    (win0_2.index t (0 : Fin 2)) (win0_2.index t (1 : Fin 2))
    (fun p d r hr => block0_rows m c t p d r hr) (fun q d r hr => block1_rows m c t q d r hr) j
    (((cfg0.win 3).blk t).view.emb j) ?_ ?_
  · show win0_3.index t (0 : Fin 2) * 128 + 1 * (j 0).val = win0_2.index t (1 : Fin 2) * 128 + (j 0).val; omega
  · show win0_3.index t (1 : Fin 2) * 128 + 1 * (j 1).val = win0_2.index t (0 : Fin 2) * 128 + (j 1).val; omega

/-! ## The blocks tile the results -/

theorem mem_block2 (t : Fin cfg0.N) (i : S1024x1024.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0_0).slice (win0_2.rect t)).set ↔ _
  rw [View.set_slice_whole, Rect.mem_set_unit]
  exact Iff.rfl

theorem mem_block3 (t : Fin cfg0.N) (i : S1024x1024.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v0_1).slice (win0_3.rect t)).set ↔ _
  rw [View.set_slice_whole, Rect.mem_set_unit]
  exact Iff.rfl

/-- Entry `(r, s)` of the first result lies in the block of the point with block indices `(r / 128, s / 128)`. -/
theorem cover2 (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ := index_onto2 ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_block2]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- The same for the second result. -/
theorem cover3 (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := index_onto3 ⟨(i 0).val / 128, by omega⟩ ⟨(i 1).val / 128, by omega⟩
  have q0 : win0_3.index t (0 : Fin 2) = (i 0).val / 128 := congrFun ht 0
  have q1 : win0_3.index t (1 : Fin 2) = (i 1).val / 128 := congrFun ht 1
  refine ⟨t, flush0_3 t, ?_⟩
  rw [mem_block3]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 128 ≤ (i 1).val ∧ (i 1).val < win0_3.index t (1 : Fin 2) * 128 + 128; omega

/-! ## The arrays after the run -/

/-- The first result after the run is the similarity matrix of the arguments. -/
theorem final2 (c : Dev nD) :
    (dats m 0 c).arrAt 2 cfg0.N
      = simArr (m ((c : Thread nD τ).loc main_arg0)) (m ((c : Thread nD τ).loc main_arg1)) :=
  (dats m 0 c).arrAt_eq_of_cover 2 (simArr (V m c main_arg0) (V m c main_arg1)) (fun t _ => flushed2_eq m c t) cover2

/-- The second result after the run is its transpose. -/
theorem final3 (c : Dev nD) :
    (dats m 0 c).arrAt 3 cfg0.N
      = simTArr (m ((c : Thread nD τ).loc main_arg0)) (m ((c : Thread nD τ).loc main_arg1)) :=
  (dats m 0 c).arrAt_eq_of_cover 3 (simTArr (V m c main_arg0) (V m c main_arg1)) (fun t _ => flushed3_eq m c t) cover3

/-- The kernel's run at the ideal values: both results named as functions of the arguments, the arguments kept. -/
theorem run : θ_run defs (onTc (τ := τ) (main (F := Ideal))) ⟨m, fun _ => 0, ρ⟩ fun r => ∀ c : Dev nD,
      r.2.mem ((c : Thread nD τ).loc main_v0_0)
        = simArr (m ((c : Thread nD τ).loc main_arg0)) (m ((c : Thread nD τ).loc main_arg1))
      ∧ r.2.mem ((c : Thread nD τ).loc main_v0_1)
        = simTArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.Jaccard.KernelValue

end
-- ==== Proof.lean ====
/-
  The pairwise Jaccard similarity of sigmoid rows, tiled over an 8 × 8 grid, against the plain jnp computation.

  With `σ` the logistic function, both programs compute for row `i` of the first argument and row `j` of the second
    sim i j = (∑ d, min (σ x1[i,d]) (σ x2[j,d])) / (∑ d, σ x1[i,d] + ∑ d, σ x2[j,d] - ∑ d, min (σ x1[i,d]) (σ x2[j,d]))
  and return the matrix `sim` and its transpose.  The kernel uses the one-operation logistic function and sums without
  an initial value; the reference spells the logistic function as `1 / (1 + exp (-x))` and starts its sums from zero:
  on the extended reals these are the same functions, with no law of arithmetic needed beyond `0 + s = s`, so the
  precondition is never opened.  The kernel computes each 128 × 128 block of `sim` from the 128 rows of each argument
  that the block pairs, and writes the block's transpose into the mirrored block of the second result; because an entry
  depends only on the two rows it pairs, the blocks are restrictions of the one matrix, and the 64 of them tile it.

  The modules: `Spec` (the function `sim` and the fact that it reads only two rows), `RefSide` (the reference's two
  results are `sim` and its transpose), `KernelBlock` (one grid point's two output blocks), `KernelValue` (the
  blocks tile the results; the kernel's run with both results named).  Here the five claims are assembled.
-/
import proofs.«141570_j37555194036374_1_alg».proof.Defs
import proofs.«141570_j37555194036374_1_alg».proof.Proof.Gen.Kernel
import proofs.«141570_j37555194036374_1_alg».proof.Proof.Gen.Kernel.Frame
import proofs.«141570_j37555194036374_1_alg».proof.Proof.Gen.KernelIdeal
import proofs.«141570_j37555194036374_1_alg».proof.Proof.Gen.KernelIdeal.Frame
import proofs.«141570_j37555194036374_1_alg».proof.Proof.Gen.ReferenceIdeal
import proofs.«141570_j37555194036374_1_alg».proof.Proof.Gen.Pre_finite_inputs
import proofs.«141570_j37555194036374_1_alg».proof.Proof.Gen.ReferenceIdeal.Run
import proofs.«141570_j37555194036374_1_alg».proof.Proof.Gen.ReferenceIdeal.Read
import proofs.«141570_j37555194036374_1_alg».proof.Proof.RefSide
import proofs.«141570_j37555194036374_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- Both programs end with the similarity matrix of the arguments in their first result and its transpose in the
    second. -/
theorem algebraic : Cert.algebraic_KernelIdeal_ReferenceIdeal := by
  intro m ρ m' ρ' _ hagree
  refine ⟨_, _, Cert.Jaccard.KernelValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · refine (Cert.ReferenceIdeal.Read.val_main_v26_eq (F := Ideal) _ _).trans ?_
    rw [Cert.Jaccard.RefSide.result0_eq, (hagree c).1, (hagree c).2]
  · refine (Cert.ReferenceIdeal.Read.val_main_v27_eq (F := Ideal) _ _).trans ?_
    rw [Cert.Jaccard.RefSide.result1_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
